-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S50000 : Shape := ⟨1, ![50000]⟩
abbrev S50000x1 : Shape := ⟨2, ![50000, 1]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 69
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x40, .f32⟩
  | .hbm, ⟨68, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S50000x40.size a
  hwx2_4 : ∀ i : grid2.Coords, EltTy.bits .f32 = 32 ∨ (Rect.block (s := S50000x40) S5000x40.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x40, .f32⟩
  | .hbm, ⟨78, _⟩ => ⟨S1x40, .f32⟩
  | .hbm, ⟨79, _⟩ => ⟨S50000x40, .f32⟩
  | .hbm, ⟨80, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Spec.lean ====
/-
  The graph network both programs compute, as functions of whole arrays read index by index over the extended reals.

  One layer takes node features `h` (50000 rows of 128), a neighbour term `a` of the same shape, a weight matrix and a
  bias row, and gives at row `r`, column `q` the value  Σ_k (h[r,k] + a[r,k]) · W[k,q] + b[q]  — a hidden layer then takes
  the maximum with zero. Rows never mix: row `r` of the result reads only row `r` of `h` and of `a`, which is why cutting
  the rows into tiles changes nothing. The last layer divides its neighbour sum by the clamped in-degree; the one law the
  two programs differ by is that multiplying by the reciprocal of a quantity that is at least one is dividing by it.
-/
import Idealize.ShloMosaic.PureOps.Ideal
import Idealize.ShloMosaic.Lib.ValueIdx

noncomputable section

open scoped BigOperators
open Idealize.ShloMosaic Idealize.ShloMosaic.ValueIdx

namespace Gin

/-- node features: 50000 rows of 128 -/
abbrev Nodes : Shape := ⟨2, ![50000, 128]⟩
/-- class scores: 50000 rows of 40 -/
abbrev Scores : Shape := ⟨2, ![50000, 40]⟩
abbrev Sq128 : Shape := ⟨2, ![128, 128]⟩
abbrev W128x40 : Shape := ⟨2, ![128, 40]⟩
abbrev Row128 : Shape := ⟨1, ![128]⟩
abbrev Row40 : Shape := ⟨1, ![40]⟩

/-- Σ_k (h[r,k] + a[r,k]) · W[k,q] + b[q], 128 output columns. -/
def pre128 (h a : Nodes.Idx → EReal) (W : Sq128.Idx → EReal) (b : Row128.Idx → EReal) (r : Fin 50000) (q : Fin 128) : EReal :=
  (∑ k : Fin 128, (h (ix2 r k) + a (ix2 r k)) * W (ix2 k q)) + b (ix1 q)

/-- The same with 40 output columns. -/
def pre40 (h a : Nodes.Idx → EReal) (W : W128x40.Idx → EReal) (b : Row40.Idx → EReal) (r : Fin 50000) (q : Fin 40) : EReal :=
  (∑ k : Fin 128, (h (ix2 r k) + a (ix2 r k)) * W (ix2 k q)) + b (ix1 q)

/-- A hidden layer: the affine map of `h + a`, clamped below at zero. -/
def hidden (h a : Nodes.Idx → EReal) (W : Sq128.Idx → EReal) (b : Row128.Idx → EReal) : Nodes.Idx → EReal :=
  fun i => max (pre128 h a W b ⟨(i 0).val, (i 0).isLt⟩ ⟨(i 1).val, (i 1).isLt⟩) 0

/-- The output layer: the affine map of `h + a` alone. -/
def scores (h a : Nodes.Idx → EReal) (W : W128x40.Idx → EReal) (b : Row40.Idx → EReal) : Scores.Idx → EReal :=
  fun i => pre40 h a W b ⟨(i 0).val, (i 0).isLt⟩ ⟨(i 1).val, (i 1).isLt⟩

theorem hidden_ix2 (h a : Nodes.Idx → EReal) (W : Sq128.Idx → EReal) (b : Row128.Idx → EReal) (r : Fin 50000) (q : Fin 128) :
    hidden h a W b (ix2 r q) = max (pre128 h a W b r q) 0 := rfl

theorem scores_ix2 (h a : Nodes.Idx → EReal) (W : W128x40.Idx → EReal) (b : Row40.Idx → EReal) (r : Fin 50000) (q : Fin 40) :
    scores h a W b (ix2 r q) = pre40 h a W b r q := rfl

/-- The neighbour term enters a layer only through its values: equal neighbour terms give equal layers. -/
theorem hidden_congr {h a a' : Nodes.Idx → EReal} (W : Sq128.Idx → EReal) (b : Row128.Idx → EReal) (e : ∀ i, a i = a' i) :
    hidden h a W b = hidden h a' W b := by rw [show a = a' from funext e]

theorem scores_congr {h a a' : Nodes.Idx → EReal} (W : W128x40.Idx → EReal) (b : Row40.Idx → EReal) (e : ∀ i, a i = a' i) :
    scores h a W b = scores h a' W b := by rw [show a = a' from funext e]

/-- The word of the float one denotes the real one. -/
theorem ofBits_one : Ideal.ofBits .f32 0x3F800000#32 = (1 : EReal) := by
  simp only [Ideal.ofBits, Ideal.ieee]
  simp
  rw [← EReal.coe_mul]
  norm_num

/-- A quantity clamped below at one is not zero, so its quotient is the product with its inverse; and the reciprocal
    `1 / d` is that inverse. Hence `x · (1 / max d 1) = x / max d 1` for every extended real `x` and `d`. -/
theorem mul_recip_clamped (x d : EReal) : x * Ideal.div 1 (max d 1) = Ideal.div x (max d 1) := by
  have h : max d 1 ≠ 0 := ne_of_gt (lt_of_lt_of_le zero_lt_one (le_max_right d 1))
  rw [Ideal.div, Ideal.div, if_neg h, if_neg h, one_mul]

end Gin

end
-- ==== Proof.Net.lean ====
/-
  The network as ONE expression of the nine arguments, in the reference program's own vocabulary.

  The neighbour sum `agg h` gathers, for every edge, the row of `h` at the edge's source node (a negative source index wraps
  by the node count) and adds it into the row of the edge's destination node, starting from zeros. It is the same
  function of `h` in all three layers; only `h` changes. It is never opened here: both programs apply it, so it is carried
  as one function. The last layer scales the neighbour sum by the in-degree clamped below at one: the kernel program
  multiplies by the reciprocal, the reference divides, and those agree because the clamped degree is never zero.
-/
import proofs.«168084_j12936441496234_1_alg».proof.Proof.Gen.ReferenceIdeal.Read
import proofs.«168084_j12936441496234_1_alg».proof.Proof.Spec
import Idealize.ShloMosaic.Lib.ValueIdx

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.Net

section Defs
variable {F : FTy → Type} [FloatOps F]

/-- The neighbour sum of `h` along the edge list `(x1, x2)` = (sources, destinations). -/
def agg (h : (⟨S50000x128, .f32⟩ : BufTy).Contents (Elt F)) (x1 x2 : (⟨S800000, .i32⟩ : BufTy).Contents (Elt F)) :
    (⟨S50000x128, .f32⟩ : BufTy).Contents (Elt F) :=
  Host.scatterAdd scatter_S50000x128_S800000x1_S800000x128_1_0_0_1 (val_main_v7 (F := F)) (val_main_v8 (F := F) x2)
    (Host.gather gather_S50000x128_S800000x1_S800000x128_1_0_n_n_0_1_1128 h (val_main_v5 (F := F) x1))

/-- The neighbour sum times the reciprocal of the clamped in-degree, row by row: the kernel program's last neighbour term. -/
def meanTerm (h : (⟨S50000x128, .f32⟩ : BufTy).Contents (Elt F)) (x1 x2 : (⟨S800000, .i32⟩ : BufTy).Contents (Elt F)) :
    (⟨S50000x128, .f32⟩ : BufTy).Contents (Elt F) :=
  mulf (agg h x1 x2)
    (broadcastInDim S50000x128 ![0, 1] bcast_S50000x1_S50000x128_0_1
      (broadcastInDim S50000x1 ![0] bcast_S50000_S50000x1_0 (Host.divf (val_main_v46 (F := F)) (val_main_v47 (F := F) x2))))

/-- A per-node column broadcast over the 128 feature columns reads the node's entry. -/
theorem column_apply {α : Type} (y : S50000x1.Idx → α) (i : S50000x128.Idx) :
    broadcastInDim S50000x128 ![0, 1] bcast_S50000x1_S50000x128_0_1 y i = y (idx_main_v49 i) :=
  broadcastInDim_apply _ bcast_S50000x1_S50000x128_0_1 y i (idx_main_v49 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- A per-node vector stood up as a column reads the node's entry. -/
theorem stood_apply {α : Type} (y : S50000.Idx → α) (i : S50000x1.Idx) :
    broadcastInDim S50000x1 ![0] bcast_S50000_S50000x1_0 y i = y (idx_main_v48 i) :=
  broadcastInDim_apply _ bcast_S50000_S50000x1_0 y i (idx_main_v48 i) (fun a => match a with
    | ⟨0, _⟩ => by show (i 0).val = if (50000 : Nat) = 1 then 0 else (i 0).val; rw [if_neg (by decide)])

end Defs

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x40, .f32⟩ : BufTy).Contents (Elt Ideal)) (x8 : (⟨S40, .f32⟩ : BufTy).Contents (Elt Ideal))

/-! The reference's three neighbour sums are `agg` of the three layers' inputs. -/

theorem v9_eq : val_main_v9 (F := Ideal) x0 x1 x2 = agg x0 x1 x2 := rfl

theorem v25_eq : val_main_v25 (F := Ideal) x0 x1 x2 x3 x4 = agg (val_main_v15 (F := Ideal) x0 x1 x2 x3 x4) x1 x2 := rfl

theorem v45_eq : val_main_v45 (F := Ideal) x0 x1 x2 x3 x4 x5 x6 = agg (val_main_v31 (F := Ideal) x0 x1 x2 x3 x4 x5 x6) x1 x2 := rfl

/-- A host quotient of two arrays reads, at an index, the quotient of the entries. -/
theorem quot_apply {s : Shape} (a b : FVec Ideal s .f32) (j : s.Idx) : Host.divf a b j = Ideal.div (a j) (b j) := rfl

/-- The law between the two programs, for ANY neighbour sum `A` and ANY degree vector `D`: scaling row `r` of `A` by the
    reciprocal of `max (D r) 1` is dividing it by `max (D r) 1`. -/
theorem mean_law (A : FVec Ideal S50000x128 .f32) (D : FVec Ideal S50000 .f32) (i : S50000x128.Idx) :
    mulf A (broadcastInDim S50000x128 ![0, 1] bcast_S50000x1_S50000x128_0_1
        (broadcastInDim S50000x1 ![0] bcast_S50000_S50000x1_0 (Host.divf (val_main_v46 (F := Ideal)) (maximumf D (val_main_v46 (F := Ideal)))))) i
      = Ideal.div (A i) (broadcastInDim S50000x128 ![0, 1] bcast_S50000x1_S50000x128_0_1
        (broadcastInDim S50000x1 ![0] bcast_S50000_S50000x1_0 (maximumf D (val_main_v46 (F := Ideal)))) i) := by
  rw [mulf_apply, column_apply, stood_apply, column_apply, stood_apply, quot_apply, maximumf_apply, val_main_v46_apply,
    val_main_cst_9_apply, Ideal.ofBits_def, Gin.ofBits_one]
  exact Gin.mul_recip_clamped _ _

/-- Entry by entry the scaled neighbour sum is the neighbour sum divided by the clamped in-degree. -/
theorem mean_eq (h : (⟨S50000x128, .f32⟩ : BufTy).Contents (Elt Ideal)) (i : S50000x128.Idx) :
    meanTerm (F := Ideal) h x1 x2 i = Ideal.div (agg h x1 x2 i) (val_main_v49 (F := Ideal) x2 i) := by
  unfold meanTerm val_main_v49 val_main_v48 val_main_v47
  exact mean_law (agg h x1 x2) (val_main_v35 (F := Ideal) x2) i

/-- The reference's last neighbour term, entry by entry, is the kernel program's. -/
theorem v50_eq (i : S50000x128.Idx) :
    val_main_v50 (F := Ideal) x0 x1 x2 x3 x4 x5 x6 i = meanTerm (F := Ideal) (val_main_v31 (F := Ideal) x0 x1 x2 x3 x4 x5 x6) x1 x2 i := by
  rw [mean_eq, ← v45_eq]
  unfold val_main_v50
  exact quot_apply _ _ i

/-- The first hidden layer. -/
abbrev H1 : Gin.Nodes.Idx → EReal := Gin.hidden x0 (agg (F := Ideal) x0 x1 x2) x3 x4
/-- The second hidden layer. -/
abbrev H2 : Gin.Nodes.Idx → EReal := Gin.hidden (H1 x0 x1 x2 x3 x4) (agg (F := Ideal) (H1 x0 x1 x2 x3 x4) x1 x2) x5 x6
/-- The class scores, the last neighbour term written as the kernel program computes it. -/
abbrev out : Gin.Scores.Idx → EReal :=
  Gin.scores (H2 x0 x1 x2 x3 x4 x5 x6) (meanTerm (F := Ideal) (H2 x0 x1 x2 x3 x4 x5 x6) x1 x2) x7 x8

end Cert.ReferenceIdeal.Net

end
-- ==== Proof.KHost.lean ====
/-
  The host stretches of the kernel program, read over ANY contents `W` of the buffers they start from.

  Each stretch between two kernel regions recomputes the wrapped source indices, gathers rows of the current node
  features, scatter-adds them by destination (the neighbour sum of the features the stretch finds), and lays the next
  bias vector out as a one-row matrix. The last stretch also counts in-degrees and scales the neighbour sum by the
  reciprocal of the clamped degree. No stretch writes an argument, nor the features it reads.
-/
import proofs.«168084_j12936441496234_1_alg».proof.Proof.Gen.KernelIdeal.Launch
import proofs.«168084_j12936441496234_1_alg».proof.Proof.Net
import Idealize.ShloMosaic.Lib.StableHlo.Run
import Idealize.ShloMosaic.Lib.ValueLayout
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo
open Cert.KernelIdeal Cert.KernelIdeal.Gen
open Cert.ReferenceIdeal.Net (agg meanTerm)

namespace Cert.KernelIdeal.Host

variable (W : Valuation τ sig (Elt Ideal))

/-! ## Before the first region -/

/-- The first neighbour sum: of the input features. -/
theorem s0_v9 : StableHlo.after (hostOps0 (F := Ideal)) W (Proc.devRef .tc main_v9)
    = agg (F := Ideal) (W (Proc.devRef .tc main_arg0)) (W (Proc.devRef .tc main_arg1)) (W (Proc.devRef .tc main_arg2)) := by
  after_results
  rfl

/-- The first bias, as a one-row matrix, reads the bias vector. -/
theorem s0_v10 (q : Fin 128) : StableHlo.after (hostOps0 (F := Ideal)) W (Proc.devRef .tc main_v10) (ix2 (0 : Fin 1) q)
    = W (Proc.devRef .tc main_arg4) (ix1 q) := by
  after_results
  show shapeCast S1x128 (W (Proc.devRef .tc main_arg4)) shapeCasts_S128_S1x128 (ix2 (0 : Fin 1) q) = _
  exact shapeCast_a_1a_apply _ _ 0 q

theorem s0_arg0 : StableHlo.after (hostOps0 (F := Ideal)) W (Proc.devRef .tc main_arg0) = W (Proc.devRef .tc main_arg0) := by after_results
theorem s0_arg1 : StableHlo.after (hostOps0 (F := Ideal)) W (Proc.devRef .tc main_arg1) = W (Proc.devRef .tc main_arg1) := by after_results
theorem s0_arg2 : StableHlo.after (hostOps0 (F := Ideal)) W (Proc.devRef .tc main_arg2) = W (Proc.devRef .tc main_arg2) := by after_results
theorem s0_arg3 : StableHlo.after (hostOps0 (F := Ideal)) W (Proc.devRef .tc main_arg3) = W (Proc.devRef .tc main_arg3) := by after_results
theorem s0_arg4 : StableHlo.after (hostOps0 (F := Ideal)) W (Proc.devRef .tc main_arg4) = W (Proc.devRef .tc main_arg4) := by after_results
theorem s0_arg5 : StableHlo.after (hostOps0 (F := Ideal)) W (Proc.devRef .tc main_arg5) = W (Proc.devRef .tc main_arg5) := by after_results
theorem s0_arg6 : StableHlo.after (hostOps0 (F := Ideal)) W (Proc.devRef .tc main_arg6) = W (Proc.devRef .tc main_arg6) := by after_results
theorem s0_arg7 : StableHlo.after (hostOps0 (F := Ideal)) W (Proc.devRef .tc main_arg7) = W (Proc.devRef .tc main_arg7) := by after_results
theorem s0_arg8 : StableHlo.after (hostOps0 (F := Ideal)) W (Proc.devRef .tc main_arg8) = W (Proc.devRef .tc main_arg8) := by after_results

/-! ## Between the first and the second region -/

/-- The second neighbour sum: of the first region's output. -/
theorem s1_v21 : StableHlo.after (hostOps1 (F := Ideal)) W (Proc.devRef .tc main_v21)
    = agg (F := Ideal) (W (Proc.devRef .tc main_v11)) (W (Proc.devRef .tc main_arg1)) (W (Proc.devRef .tc main_arg2)) := by
  after_results
  rfl

theorem s1_v22 (q : Fin 128) : StableHlo.after (hostOps1 (F := Ideal)) W (Proc.devRef .tc main_v22) (ix2 (0 : Fin 1) q)
    = W (Proc.devRef .tc main_arg6) (ix1 q) := by
  after_results
  show shapeCast S1x128 (W (Proc.devRef .tc main_arg6)) shapeCasts_S128_S1x128 (ix2 (0 : Fin 1) q) = _
  exact shapeCast_a_1a_apply _ _ 0 q

theorem s1_v11 : StableHlo.after (hostOps1 (F := Ideal)) W (Proc.devRef .tc main_v11) = W (Proc.devRef .tc main_v11) := by after_results
theorem s1_arg0 : StableHlo.after (hostOps1 (F := Ideal)) W (Proc.devRef .tc main_arg0) = W (Proc.devRef .tc main_arg0) := by after_results
theorem s1_arg1 : StableHlo.after (hostOps1 (F := Ideal)) W (Proc.devRef .tc main_arg1) = W (Proc.devRef .tc main_arg1) := by after_results
theorem s1_arg2 : StableHlo.after (hostOps1 (F := Ideal)) W (Proc.devRef .tc main_arg2) = W (Proc.devRef .tc main_arg2) := by after_results
theorem s1_arg3 : StableHlo.after (hostOps1 (F := Ideal)) W (Proc.devRef .tc main_arg3) = W (Proc.devRef .tc main_arg3) := by after_results
theorem s1_arg4 : StableHlo.after (hostOps1 (F := Ideal)) W (Proc.devRef .tc main_arg4) = W (Proc.devRef .tc main_arg4) := by after_results
theorem s1_arg5 : StableHlo.after (hostOps1 (F := Ideal)) W (Proc.devRef .tc main_arg5) = W (Proc.devRef .tc main_arg5) := by after_results
theorem s1_arg6 : StableHlo.after (hostOps1 (F := Ideal)) W (Proc.devRef .tc main_arg6) = W (Proc.devRef .tc main_arg6) := by after_results
theorem s1_arg7 : StableHlo.after (hostOps1 (F := Ideal)) W (Proc.devRef .tc main_arg7) = W (Proc.devRef .tc main_arg7) := by after_results
theorem s1_arg8 : StableHlo.after (hostOps1 (F := Ideal)) W (Proc.devRef .tc main_arg8) = W (Proc.devRef .tc main_arg8) := by after_results

/-! ## Between the second and the third region -/

/-- The third neighbour term: the neighbour sum of the second region's output, each row scaled by the reciprocal of its
    node's clamped in-degree. -/
theorem s2_v44 : StableHlo.after (hostOps2 (F := Ideal)) W (Proc.devRef .tc main_v44)
    = meanTerm (F := Ideal) (W (Proc.devRef .tc main_v23)) (W (Proc.devRef .tc main_arg1)) (W (Proc.devRef .tc main_arg2)) := by
  after_results_simp
  rfl

theorem s2_v45 (q : Fin 40) : StableHlo.after (hostOps2 (F := Ideal)) W (Proc.devRef .tc main_v45) (ix2 (0 : Fin 1) q)
    = W (Proc.devRef .tc main_arg8) (ix1 q) := by
  after_results
  show shapeCast S1x40 (W (Proc.devRef .tc main_arg8)) shapeCasts_S40_S1x40 (ix2 (0 : Fin 1) q) = _
  exact shapeCast_a_1a_apply _ _ 0 q

theorem s2_v23 : StableHlo.after (hostOps2 (F := Ideal)) W (Proc.devRef .tc main_v23) = W (Proc.devRef .tc main_v23) := by after_results
theorem s2_arg0 : StableHlo.after (hostOps2 (F := Ideal)) W (Proc.devRef .tc main_arg0) = W (Proc.devRef .tc main_arg0) := by after_results
theorem s2_arg1 : StableHlo.after (hostOps2 (F := Ideal)) W (Proc.devRef .tc main_arg1) = W (Proc.devRef .tc main_arg1) := by after_results
theorem s2_arg2 : StableHlo.after (hostOps2 (F := Ideal)) W (Proc.devRef .tc main_arg2) = W (Proc.devRef .tc main_arg2) := by after_results
theorem s2_arg3 : StableHlo.after (hostOps2 (F := Ideal)) W (Proc.devRef .tc main_arg3) = W (Proc.devRef .tc main_arg3) := by after_results
theorem s2_arg4 : StableHlo.after (hostOps2 (F := Ideal)) W (Proc.devRef .tc main_arg4) = W (Proc.devRef .tc main_arg4) := by after_results
theorem s2_arg5 : StableHlo.after (hostOps2 (F := Ideal)) W (Proc.devRef .tc main_arg5) = W (Proc.devRef .tc main_arg5) := by after_results
theorem s2_arg6 : StableHlo.after (hostOps2 (F := Ideal)) W (Proc.devRef .tc main_arg6) = W (Proc.devRef .tc main_arg6) := by after_results
theorem s2_arg7 : StableHlo.after (hostOps2 (F := Ideal)) W (Proc.devRef .tc main_arg7) = W (Proc.devRef .tc main_arg7) := by after_results
theorem s2_arg8 : StableHlo.after (hostOps2 (F := Ideal)) W (Proc.devRef .tc main_arg8) = W (Proc.devRef .tc main_arg8) := by after_results

end Cert.KernelIdeal.Host

end
-- ==== Proof.Reg0.lean ====
/-
  Region 0 of the kernel program: the array its output window leaves, as ONE function of the arrays the region finds.

  The region's grid has ten points. Point `t` stages rows `5000·t … 5000·t + 4999` of the node features (window 0) and of
  the neighbour term (window 1), the whole weight matrix (window 2) and the whole bias row (window 3), and writes rows
  `5000·t … 5000·t + 4999` of the result (window 4). The body's value at row `r`, column `q` of its block is
  `max (Σ_k (h[r,k] + a[r,k]) · W[k,q] + b[q]) 0` of the staged blocks: it reads row `r` of the two staged row blocks only,
  so block `t` of the result is block `t` of the hidden layer of the whole arrays, and the ten row blocks tile the 50000 rows.
-/
import proofs.«168084_j12936441496234_1_alg».proof.Proof.Gen.KernelIdeal.Frame
import proofs.«168084_j12936441496234_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Cert.KernelIdeal Cert.KernelIdeal.Gen

namespace Cert.KernelIdeal.Reg0

variable (V : (c : Dev nD) → (b : Ref sig .tc) → Buf (Elt Ideal) ((c : Thread nD τ).loc b))

/-! ## The body's value at one element of its block -/

/-- The contraction's left operand at output index `i` and contraction index `q`: its row is the output's row … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its column is the contraction index. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and its column is the output's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator, at row `r` and column `q`, is `Σ_k a[r,k] · w[k,q]`: the sum over the
    one-axis contraction index re-indexed by its one coordinate `k : Fin 128`. -/
theorem mm_apply {φ₁ φ₂ : FTy} (a : FVec Ideal S5000x128 φ₁) (w : FVec Ideal S128x128 φ₂) (r : Fin 5000) (q : Fin 128) :
    matmul (F := Ideal) dot_S5000x128_S128x128_S5000x128_1_0_0_1_n_n none a w (constant S5000x128 .f32 0x00000000#32) (ix2 r q)
      = ∑ k : Fin 128, a (ix2 r k) * w (ix2 k q) := by
  refine (Ideal.matmul_constant_zero_apply dot_S5000x128_S128x128_S5000x128_1_0_0_1_n_n none a w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The body's stored value at row `r`, column `q` of its block, from the four staged blocks: the format changes are the
    identity on extended reals, the shape casts are to the same shape, the bias row is broadcast over the rows (row 0 of
    the `1 × 128` block at every `r`), and the word of the float zero denotes zero. -/
theorem pay_apply (x0 x1 : Vec Ideal S5000x128 .f32) (x2 : Vec Ideal S128x128 .f32) (x3 : Vec Ideal S1x128 .f32) (r : Fin 5000) (q : Fin 128) :
    k0_pay1 (F := Ideal) x0 x1 x2 x3 (ix2 r q)
      = max ((∑ k : Fin 128, (x0 (ix2 r k) + x1 (ix2 r k)) * x2 (ix2 k q)) + x3 (ix2 (0 : Fin 1) q)) 0 := by
  unfold k0_pay1
  simp only [shapeCast_self]
  rw [maximumf_apply, addf_apply, broadcast_apply, mm_apply]
  have hbc : broadcastTo S5000x128 x3 broadcasts_S1x128_S5000x128 (ix2 r q) = x3 (ix2 (0 : Fin 1) q) :=
    broadcastTo_apply x3 broadcasts_S1x128_S5000x128 (ix2 r q) (ix2 (0 : Fin 1) q) (fun a => by
      match a with
      | ⟨0, _⟩ => show (0 : Nat) = if (1 : Nat) = 1 then 0 else _; rw [if_pos rfl]
      | ⟨1, _⟩ => show q.val = if (128 : Nat) = 1 then 0 else q.val; rw [if_neg (by decide)])
  have hzero : (FloatOps.ofBits .f32 0x00000000#32 : Ideal .f32) = 0 := Ideal.ofBits_zero_f32
  rw [hbc, hzero]
  simp only [truncf_apply, addf_apply]

/-! ## Which rows each staged block holds -/

theorem hz : (![0, 0] : Fin 2 → Nat) = fun _ => 0 := funext fun a => by fin_cases a <;> rfl

/-- The printed index maps over the ten grid points: windows 0, 1 and 4 are at row block `t` (column block 0) at point
    `t`; windows 2 and 3 stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point `t` holds rows `5000·t … 5000·t + 4999` of the node features: a block's coordinate is the
    block index times the block's extent plus the coordinate inside the block. -/
theorem blk0_apply (c : Dev nD) (t : Fin cfg0.N) (r : Fin 5000) (k : Fin 128) (h : t.val * 5000 + r.val < 50000) :
    (iblk0 V c 0 t : Vec Ideal S5000x128 .f32) (ix2 r k)
      = V c (Pipeline.arrRef spec0 0) (ix2 (⟨t.val * 5000 + r.val, h⟩ : Fin 50000) k) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- Window 1's block at point `t` holds the same rows of the neighbour term. -/
theorem blk1_apply (c : Dev nD) (t : Fin cfg0.N) (r : Fin 5000) (k : Fin 128) (h : t.val * 5000 + r.val < 50000) :
    (iblk0 V c 1 t : Vec Ideal S5000x128 .f32) (ix2 r k)
      = V c (Pipeline.arrRef spec0 1) (ix2 (⟨t.val * 5000 + r.val, h⟩ : Fin 50000) k) := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 128 + 1 * k.val = k.val; rw [e1]; omega

/-- Window 2's block is the whole weight matrix at every point. -/
theorem blk2_apply (c : Dev nD) (t : Fin cfg0.N) (k q : Fin 128) :
    (iblk0 V c 2 t : Vec Ideal S128x128 .f32) (ix2 k q) = V c (Pipeline.arrRef spec0 2) (ix2 k q) := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Window 3's block is the whole bias row at every point. -/
theorem blk3_apply (c : Dev nD) (t : Fin cfg0.N) (q : Fin 128) :
    (iblk0 V c 3 t : Vec Ideal S1x128 .f32) (ix2 (0 : Fin 1) q) = V c (Pipeline.arrRef spec0 3) (ix2 (0 : Fin 1) q) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-! ## What a point writes back -/

/-- WHAT POINT `t` WRITES BACK is block `t` of the hidden layer of the whole arrays: element `(r, q)` of the block is the
    body's value there, which reads row `r` of the two staged row blocks — row `5000·t + r` of the node features and of
    the neighbour term —, the whole weight matrix and the bias row; element `(r, q)` of block `t` of the result array is
    its element `(5000·t + r, q)`, where the hidden layer is the same maximum of the same sum. -/
theorem flushed_eq (c : Dev nD) (t : Fin cfg0.N) (b : Gin.Row128.Idx → EReal)
    (hb : ∀ q : Fin 128, V c (Pipeline.arrRef spec0 3) (ix2 (0 : Fin 1) q) = b (ix1 q)) :
    (dat0 (F := Ideal) V c).flushed 4 t
      = ((cfg0.win 4).blk t).view.read (Elt Ideal) (Gin.hidden (V c (Pipeline.arrRef spec0 0)) (V c (Pipeline.arrRef spec0 1)) (V c (Pipeline.arrRef spec0 2)) b) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  have ht : t.val < 10 := t.isLt
  have hr : r.val < 5000 := r.isLt
  have hrow : t.val * 5000 + r.val < 50000 := by omega
  obtain ⟨-, -, -, -, -, -, -, -, e0, e1⟩ := idx_facts t
  have hemb : ((cfg0.win 4).blk t).view.emb (ix2 r q) = ix2 (⟨t.val * 5000 + r.val, hrow⟩ : Fin 50000) q := funext fun a => Fin.ext (by
    match a with
    | ⟨0, _⟩ => show win0_4.index t (0 : Fin 2) * 5000 + 1 * r.val = t.val * 5000 + r.val; rw [e0]; omega
    | ⟨1, _⟩ => show win0_4.index t (1 : Fin 2) * 128 + 1 * q.val = q.val; rw [e1]; omega)
  show k0_pay1 (F := Ideal) (iblk0 V c 0 t) (iblk0 V c 1 t) (iblk0 V c 2 t) (iblk0 V c 3 t) (ix2 r q)
    = Gin.hidden (V c (Pipeline.arrRef spec0 0)) (V c (Pipeline.arrRef spec0 1)) (V c (Pipeline.arrRef spec0 2)) b (((cfg0.win 4).blk t).view.emb (ix2 r q))
  rw [hemb, Gin.hidden_ix2]
  refine (pay_apply _ _ _ _ r q).trans ?_
  unfold Gin.pre128
  rw [blk3_apply, hb]
  refine congrArg (fun s => max (s + b (ix1 q)) 0) (Finset.sum_congr rfl fun k _ => ?_)
  rw [blk0_apply V c t r k hrow, blk1_apply V c t r k hrow, blk2_apply]

/-! ## The blocks tile the array -/

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v11).slice (win0_4.rect t)).set ↔ _
  rw [View.set_slice_whole, Rect.mem_set_unit]
  exact Iff.rfl

/-- The ten row blocks of 5000 rows tile the 50000 rows: row `i` lies in the block of point `i / 5000`, whose rows are
    `5000·(i / 5000) … 5000·(i / 5000) + 4999`, every block spans all 128 columns, and every point writes its block back. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hq : (i 0).val / 5000 < 10 := by omega
  let t : Fin cfg0.N := ⟨(i 0).val / 5000, hq⟩
  have htv : t.val = (i 0).val / 5000 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e0, htv]; omega
  | ⟨1, _⟩ => show win0_4.index t (1 : Fin 2) * 128 ≤ (i 1).val ∧ (i 1).val < win0_4.index t (1 : Fin 2) * 128 + 128; rw [e1]; omega

/-! ## The array the region leaves -/

theorem final (c : Dev nD) (b : Gin.Row128.Idx → EReal)
    (hb : ∀ q : Fin 128, V c (Pipeline.arrRef spec0 3) (ix2 (0 : Fin 1) q) = b (ix1 q)) :
    (dat0 (F := Ideal) V c).arrAt 4 cfg0.N
      = Gin.hidden (V c (Pipeline.arrRef spec0 0)) (V c (Pipeline.arrRef spec0 1)) (V c (Pipeline.arrRef spec0 2)) b := by
  -- every point's write-back is its block of the hidden layer, and the blocks cover the array
  exact (dat0 (F := Ideal) V c).arrAt_eq_of_cover 4
    (Gin.hidden (V c (Pipeline.arrRef spec0 0)) (V c (Pipeline.arrRef spec0 1)) (V c (Pipeline.arrRef spec0 2)) b)
    (fun t _ => flushed_eq V c t b hb) cover

end Cert.KernelIdeal.Reg0

end
-- ==== Proof.Reg1.lean ====
/-
  Region 1 of the kernel program: the array its output window leaves, as ONE function of the arrays the region finds.

  The same layer as region 0 at the same shapes, on the arrays this region finds (its node features are the previous
  layer's result). The region's grid has ten points. Point `t` stages rows `5000·t … 5000·t + 4999` of the node features (window 0) and of
  the neighbour term (window 1), the whole weight matrix (window 2) and the whole bias row (window 3), and writes rows
  `5000·t … 5000·t + 4999` of the result (window 4). The body's value at row `r`, column `q` of its block is
  `max (Σ_k (h[r,k] + a[r,k]) · W[k,q] + b[q]) 0` of the staged blocks: it reads row `r` of the two staged row blocks only,
  so block `t` of the result is block `t` of the hidden layer of the whole arrays, and the ten row blocks tile the 50000 rows.
-/
import proofs.«168084_j12936441496234_1_alg».proof.Proof.Gen.KernelIdeal.Frame
import proofs.«168084_j12936441496234_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Cert.KernelIdeal Cert.KernelIdeal.Gen

namespace Cert.KernelIdeal.Reg1

variable (V : (c : Dev nD) → (b : Ref sig .tc) → Buf (Elt Ideal) ((c : Thread nD τ).loc b))

/-! ## The body's value at one element of its block -/

/-- The contraction's left operand at output index `i` and contraction index `q`: its row is the output's row … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its column is the contraction index. -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and its column is the output's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator, at row `r` and column `q`, is `Σ_k a[r,k] · w[k,q]`: the sum over the
    one-axis contraction index re-indexed by its one coordinate `k : Fin 128`. -/
theorem mm_apply {φ₁ φ₂ : FTy} (a : FVec Ideal S5000x128 φ₁) (w : FVec Ideal S128x128 φ₂) (r : Fin 5000) (q : Fin 128) :
    matmul (F := Ideal) dot_S5000x128_S128x128_S5000x128_1_0_0_1_n_n none a w (constant S5000x128 .f32 0x00000000#32) (ix2 r q)
      = ∑ k : Fin 128, a (ix2 r k) * w (ix2 k q) := by
  refine (Ideal.matmul_constant_zero_apply dot_S5000x128_S128x128_S5000x128_1_0_0_1_n_n none a w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The body's stored value at row `r`, column `q` of its block, from the four staged blocks: the format changes are the
    identity on extended reals, the shape casts are to the same shape, the bias row is broadcast over the rows (row 0 of
    the `1 × 128` block at every `r`), and the word of the float zero denotes zero. -/
theorem pay_apply (x0 x1 : Vec Ideal S5000x128 .f32) (x2 : Vec Ideal S128x128 .f32) (x3 : Vec Ideal S1x128 .f32) (r : Fin 5000) (q : Fin 128) :
    k1_pay1 (F := Ideal) x0 x1 x2 x3 (ix2 r q)
      = max ((∑ k : Fin 128, (x0 (ix2 r k) + x1 (ix2 r k)) * x2 (ix2 k q)) + x3 (ix2 (0 : Fin 1) q)) 0 := by
  unfold k1_pay1
  simp only [shapeCast_self]
  rw [maximumf_apply, addf_apply, broadcast_apply, mm_apply]
  have hbc : broadcastTo S5000x128 x3 broadcasts_S1x128_S5000x128 (ix2 r q) = x3 (ix2 (0 : Fin 1) q) :=
    broadcastTo_apply x3 broadcasts_S1x128_S5000x128 (ix2 r q) (ix2 (0 : Fin 1) q) (fun a => by
      match a with
      | ⟨0, _⟩ => show (0 : Nat) = if (1 : Nat) = 1 then 0 else _; rw [if_pos rfl]
      | ⟨1, _⟩ => show q.val = if (128 : Nat) = 1 then 0 else q.val; rw [if_neg (by decide)])
  have hzero : (FloatOps.ofBits .f32 0x00000000#32 : Ideal .f32) = 0 := Ideal.ofBits_zero_f32
  rw [hbc, hzero]
  simp only [truncf_apply, addf_apply]

/-! ## Which rows each staged block holds -/

theorem hz : (![0, 0] : Fin 2 → Nat) = fun _ => 0 := funext fun a => by fin_cases a <;> rfl

/-- The printed index maps over the ten grid points: windows 0, 1 and 4 are at row block `t` (column block 0) at point
    `t`; windows 2 and 3 stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` holds rows `5000·t … 5000·t + 4999` of the node features: a block's coordinate is the
    block index times the block's extent plus the coordinate inside the block. -/
theorem blk0_apply (c : Dev nD) (t : Fin cfg1.N) (r : Fin 5000) (k : Fin 128) (h : t.val * 5000 + r.val < 50000) :
    (iblk1 V c 0 t : Vec Ideal S5000x128 .f32) (ix2 r k)
      = V c (Pipeline.arrRef spec1 0) (ix2 (⟨t.val * 5000 + r.val, h⟩ : Fin 50000) k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Window 1's block at point `t` holds the same rows of the neighbour term. -/
theorem blk1_apply (c : Dev nD) (t : Fin cfg1.N) (r : Fin 5000) (k : Fin 128) (h : t.val * 5000 + r.val < 50000) :
    (iblk1 V c 1 t : Vec Ideal S5000x128 .f32) (ix2 r k)
      = V c (Pipeline.arrRef spec1 1) (ix2 (⟨t.val * 5000 + r.val, h⟩ : Fin 50000) k) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

/-- Window 2's block is the whole weight matrix at every point. -/
theorem blk2_apply (c : Dev nD) (t : Fin cfg1.N) (k q : Fin 128) :
    (iblk1 V c 2 t : Vec Ideal S128x128 .f32) (ix2 k q) = V c (Pipeline.arrRef spec1 2) (ix2 k q) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Window 3's block is the whole bias row at every point. -/
theorem blk3_apply (c : Dev nD) (t : Fin cfg1.N) (q : Fin 128) :
    (iblk1 V c 3 t : Vec Ideal S1x128 .f32) (ix2 (0 : Fin 1) q) = V c (Pipeline.arrRef spec1 3) (ix2 (0 : Fin 1) q) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-! ## What a point writes back -/

/-- WHAT POINT `t` WRITES BACK is block `t` of the hidden layer of the whole arrays: element `(r, q)` of the block is the
    body's value there, which reads row `r` of the two staged row blocks — row `5000·t + r` of the node features and of
    the neighbour term —, the whole weight matrix and the bias row; element `(r, q)` of block `t` of the result array is
    its element `(5000·t + r, q)`, where the hidden layer is the same maximum of the same sum. -/
theorem flushed_eq (c : Dev nD) (t : Fin cfg1.N) (b : Gin.Row128.Idx → EReal)
    (hb : ∀ q : Fin 128, V c (Pipeline.arrRef spec1 3) (ix2 (0 : Fin 1) q) = b (ix1 q)) :
    (dat1 (F := Ideal) V c).flushed 4 t
      = ((cfg1.win 4).blk t).view.read (Elt Ideal) (Gin.hidden (V c (Pipeline.arrRef spec1 0)) (V c (Pipeline.arrRef spec1 1)) (V c (Pipeline.arrRef spec1 2)) b) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  have ht : t.val < 10 := t.isLt
  have hr : r.val < 5000 := r.isLt
  have hrow : t.val * 5000 + r.val < 50000 := by omega
  obtain ⟨-, -, -, -, -, -, -, -, e0, e1⟩ := idx_facts t
  have hemb : ((cfg1.win 4).blk t).view.emb (ix2 r q) = ix2 (⟨t.val * 5000 + r.val, hrow⟩ : Fin 50000) q := funext fun a => Fin.ext (by
    match a with
    | ⟨0, _⟩ => show win1_4.index t (0 : Fin 2) * 5000 + 1 * r.val = t.val * 5000 + r.val; rw [e0]; omega
    | ⟨1, _⟩ => show win1_4.index t (1 : Fin 2) * 128 + 1 * q.val = q.val; rw [e1]; omega)
  show k1_pay1 (F := Ideal) (iblk1 V c 0 t) (iblk1 V c 1 t) (iblk1 V c 2 t) (iblk1 V c 3 t) (ix2 r q)
    = Gin.hidden (V c (Pipeline.arrRef spec1 0)) (V c (Pipeline.arrRef spec1 1)) (V c (Pipeline.arrRef spec1 2)) b (((cfg1.win 4).blk t).view.emb (ix2 r q))
  rw [hemb, Gin.hidden_ix2]
  refine (pay_apply _ _ _ _ r q).trans ?_
  unfold Gin.pre128
  rw [blk3_apply, hb]
  refine congrArg (fun s => max (s + b (ix1 q)) 0) (Finset.sum_congr rfl fun k _ => ?_)
  rw [blk0_apply V c t r k hrow, blk1_apply V c t r k hrow, blk2_apply]

/-! ## The blocks tile the array -/

/-- An index of the result array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v23).slice (win1_4.rect t)).set ↔ _
  rw [View.set_slice_whole, Rect.mem_set_unit]
  exact Iff.rfl

/-- The ten row blocks of 5000 rows tile the 50000 rows: row `i` lies in the block of point `i / 5000`, whose rows are
    `5000·(i / 5000) … 5000·(i / 5000) + 4999`, every block spans all 128 columns, and every point writes its block back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hq : (i 0).val / 5000 < 10 := by omega
  let t : Fin cfg1.N := ⟨(i 0).val / 5000, hq⟩
  have htv : t.val = (i 0).val / 5000 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e0, htv]; omega
  | ⟨1, _⟩ => show win1_4.index t (1 : Fin 2) * 128 ≤ (i 1).val ∧ (i 1).val < win1_4.index t (1 : Fin 2) * 128 + 128; rw [e1]; omega

/-! ## The array the region leaves -/

theorem final (c : Dev nD) (b : Gin.Row128.Idx → EReal)
    (hb : ∀ q : Fin 128, V c (Pipeline.arrRef spec1 3) (ix2 (0 : Fin 1) q) = b (ix1 q)) :
    (dat1 (F := Ideal) V c).arrAt 4 cfg1.N
      = Gin.hidden (V c (Pipeline.arrRef spec1 0)) (V c (Pipeline.arrRef spec1 1)) (V c (Pipeline.arrRef spec1 2)) b := by
  -- every point's write-back is its block of the hidden layer, and the blocks cover the array
  exact (dat1 (F := Ideal) V c).arrAt_eq_of_cover 4
    (Gin.hidden (V c (Pipeline.arrRef spec1 0)) (V c (Pipeline.arrRef spec1 1)) (V c (Pipeline.arrRef spec1 2)) b)
    (fun t _ => flushed_eq V c t b hb) cover

end Cert.KernelIdeal.Reg1

end
-- ==== Proof.Reg2.lean ====
/-
  Region 2 of the kernel program: the array its output window leaves, as ONE function of the arrays the region finds.
-/
import proofs.«168084_j12936441496234_1_alg».proof.Proof.Gen.KernelIdeal.Frame
import proofs.«168084_j12936441496234_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Cert.KernelIdeal Cert.KernelIdeal.Gen

namespace Cert.KernelIdeal.Reg2

variable (V : (c : Dev nD) → (b : Ref sig .tc) → Buf (Elt Ideal) ((c : Thread nD τ).loc b))

/-! ## The tile's value at an entry -/

/-- On the left operand of the product, axis 0 is the output row. -/
theorem lhs_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- On the left operand, axis 1 is the contracted one. -/
theorem lhs_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- On the right operand, axis 0 is the contracted one. -/
theorem rhs_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- On the right operand, axis 1 is the output column. -/
theorem rhs_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product of a 5000×128 tile with the 128×40 weights, into the zero accumulator, at row `r` and column `q`:
    the sum over the 128 contracted positions. -/
theorem matmul_apply2 (y0 : FVec Ideal S5000x128 .bf16) (y1 : FVec Ideal S128x40 .bf16) (r : Fin 5000) (q : Fin 40) :
    FloatOps.matmul dot_S5000x128_S128x40_S5000x40_1_0_0_1_n_n none y0 y1 (constant (F := Ideal) S5000x40 .f32 0x00000000#32) (ix2 r q)
      = ∑ k : Fin 128, y0 (ix2 r k) * y1 (ix2 k q) := by
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 r q) ((ValueIdx.contrEquiv1 dot_S5000x128_S128x40_S5000x40_1_0_0_1_n_n 128 rfl rfl).symm k) = ix2 r k := funext fun a => Fin.ext (by
    match a with
    | ⟨0, _⟩ => exact lhs_0 _ _
    | ⟨1, _⟩ => exact (lhs_1 _ _).trans hk)
  have er : dot_S5000x128_S128x40_S5000x40_1_0_0_1_n_n.rhsIdx (ix2 r q) ((ValueIdx.contrEquiv1 dot_S5000x128_S128x40_S5000x40_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row spread over the 5000 rows of a tile reads, at any row, the bias of the column. -/
theorem bias_apply (x3 : Vec Ideal S1x40 .f32) (r : Fin 5000) (q : Fin 40) :
    broadcastTo S5000x40 x3 broadcasts_S1x40_S5000x40 (ix2 r q) = x3 (ix2 (0 : Fin 1) q) := by
  refine broadcastTo_apply x3 broadcasts_S1x40_S5000x40 (ix2 r q) (ix2 (0 : Fin 1) q) (fun a => ?_)
  match a with
  | ⟨0, _⟩ => rfl
  | ⟨1, _⟩ => rfl

/-- What the body stores at row `r`, column `q` of its tile: Σ_k (x0[r,k] + x1[r,k]) · x2[k,q] + x3[0,q]. The change
    of format before the product is the identity on the values, the casts to the same shape likewise. -/
theorem pay_apply (x0 x1 : Vec Ideal S5000x128 .f32) (x2 : Vec Ideal S128x40 .f32) (x3 : Vec Ideal S1x40 .f32) (r : Fin 5000) (q : Fin 40) :
    k2_pay1 (F := Ideal) x0 x1 x2 x3 (ix2 r q)
      = (∑ k : Fin 128, (x0 (ix2 r k) + x1 (ix2 r k)) * x2 (ix2 k q)) + x3 (ix2 (0 : Fin 1) q) := by
  unfold k2_pay1
  simp only [shapeCast_self]
  rw [addf_apply]
  refine congrArg₂ (· + ·) ?_ (bias_apply x3 r q)
  exact matmul_apply2 _ _ r q

/-! ## The blocks a grid point stages -/

theorem hz : (![0, 0] : Fin 2 → Nat) = fun _ => 0 := funext fun a => by fin_cases a <;> rfl

/-- The index maps over the ten grid points: point `t` takes the `t`-th block of 5000 rows of the two node arrays and
    of the result, and the one block the weights and the bias row are. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem t_lt (t : Fin cfg2.N) : t.val < 10 := t.isLt

/-- Row `r` of point `t`'s block of the node features is row `5000·t + r` of the array. -/
theorem blk0_apply (c : Dev nD) (t : Fin cfg2.N) (r : Fin 5000) (k : Fin 128) (h : t.val * 5000 + r.val < 50000) :
    (iblk2 (F := Ideal) V c 0 t : S5000x128.Idx → EReal) (ix2 r k)
      = (V c (Pipeline.arrRef spec2 0) : S50000x128.Idx → EReal) (ix2 ⟨t.val * 5000 + r.val, h⟩ k) := by
  obtain ⟨e0, e1, -⟩ := idx_facts t
  show (V c (Pipeline.arrRef spec2 0) : S50000x128.Idx → EReal) (((cfg2.win 0).blk t).view.emb (ix2 r k)) = _
  refine congrArg _ (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

/-- Row `r` of point `t`'s block of the neighbour term is row `5000·t + r` of the array. -/
theorem blk1_apply (c : Dev nD) (t : Fin cfg2.N) (r : Fin 5000) (k : Fin 128) (h : t.val * 5000 + r.val < 50000) :
    (iblk2 (F := Ideal) V c 1 t : S5000x128.Idx → EReal) (ix2 r k)
      = (V c (Pipeline.arrRef spec2 1) : S50000x128.Idx → EReal) (ix2 ⟨t.val * 5000 + r.val, h⟩ k) := by
  obtain ⟨-, -, e0, e1, -⟩ := idx_facts t
  show (V c (Pipeline.arrRef spec2 1) : S50000x128.Idx → EReal) (((cfg2.win 1).blk t).view.emb (ix2 r k)) = _
  refine congrArg _ (funext fun a => Fin.ext ?_)
  match a with
  | ⟨0, _⟩ => show win2_1.index t (0 : Fin 2) * 5000 + 1 * r.val = t.val * 5000 + r.val; omega
  | ⟨1, _⟩ => show win2_1.index t (1 : Fin 2) * 128 + 1 * k.val = k.val; omega

/-- Every point stages the whole weight matrix. -/
theorem blk2_apply (c : Dev nD) (t : Fin cfg2.N) (k : Fin 128) (q : Fin 40) :
    (iblk2 (F := Ideal) V c 2 t : S128x40.Idx → EReal) (ix2 k q)
      = (V c (Pipeline.arrRef spec2 2) : S128x40.Idx → EReal) (ix2 k q) := by
  obtain ⟨-, -, -, -, e0, e1, -⟩ := idx_facts t
  show (V c (Pipeline.arrRef spec2 2) : S128x40.Idx → EReal) (((cfg2.win 2).blk t).view.emb (ix2 k q)) = _
  refine congrArg _ (funext fun a => Fin.ext ?_)
  match a with
  | ⟨0, _⟩ => show win2_2.index t (0 : Fin 2) * 128 + 1 * k.val = k.val; omega
  | ⟨1, _⟩ => show win2_2.index t (1 : Fin 2) * 40 + 1 * q.val = q.val; omega

/-- Every point stages the whole bias row. -/
theorem blk3_apply (c : Dev nD) (t : Fin cfg2.N) (q : Fin 40) :
    (iblk2 (F := Ideal) V c 3 t : S1x40.Idx → EReal) (ix2 (0 : Fin 1) q)
      = (V c (Pipeline.arrRef spec2 3) : S1x40.Idx → EReal) (ix2 (0 : Fin 1) q) := by
  obtain ⟨-, -, -, -, -, -, e0, e1, -⟩ := idx_facts t
  show (V c (Pipeline.arrRef spec2 3) : S1x40.Idx → EReal) (((cfg2.win 3).blk t).view.emb (ix2 (0 : Fin 1) q)) = _
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 40 + 1 * q.val = q.val; omega

/-- Entry `(r, q)` of point `t`'s block of the result array is entry `(5000·t + r, q)` of the array. -/
theorem emb4 (t : Fin cfg2.N) (r : Fin 5000) (q : Fin 40) (h : t.val * 5000 + r.val < 50000) :
    ((cfg2.win 4).blk t).view.emb (ix2 r q) = (ix2 ⟨t.val * 5000 + r.val, h⟩ q : S50000x40.Idx) := by
  obtain ⟨-, -, -, -, -, -, -, -, e0, e1⟩ := idx_facts t
  refine funext fun a => Fin.ext ?_
  match a with
  | ⟨0, _⟩ => show win2_4.index t (0 : Fin 2) * 5000 + 1 * r.val = t.val * 5000 + r.val; omega
  | ⟨1, _⟩ => show win2_4.index t (1 : Fin 2) * 40 + 1 * q.val = q.val; omega

/-! ## What a grid point writes back -/

/-- WHAT POINT `t` WRITES BACK is block `t` of the layer's scores of the arrays the region finds: entry `(r, q)` of the
    tile is Σ_k (h[5000t+r, k] + a[5000t+r, k]) · W[k, q] + bias[q], because the tile's row `r` of both node arrays is the
    arrays' row `5000t + r` and the weights and the bias row are staged whole. -/
theorem flushed_eq (c : Dev nD) (t : Fin cfg2.N) (b : Gin.Row40.Idx → EReal)
    (hb : ∀ q : Fin 40, V c (Pipeline.arrRef spec2 3) (ix2 (0 : Fin 1) q) = b (ix1 q)) :
    (dat2 (F := Ideal) V c).flushed 4 t = ((cfg2.win 4).blk t).view.read (Elt Ideal)
      (Gin.scores (V c (Pipeline.arrRef spec2 0)) (V c (Pipeline.arrRef spec2 1)) (V c (Pipeline.arrRef spec2 2)) b) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x40) hz, View.ld_unit_zero (S := S1x40) hz]
  funext j
  obtain ⟨r, q, rfl⟩ : ∃ (r : Fin 5000) (q : Fin 40), j = ix2 r q := ⟨j 0, j 1, eq_ix2 j⟩
  have ht := t_lt t
  have hr : r.val < 5000 := r.isLt
  have hlt : t.val * 5000 + r.val < 50000 := by omega
  rw [View.read_apply, emb4 t r q hlt, Gin.scores_ix2]
  refine (pay_apply _ _ _ _ r q).trans ?_
  unfold Gin.pre40
  rw [blk3_apply V c t q, hb q]
  refine congrArg (· + b (ix1 q)) (Finset.sum_congr rfl fun k _ => ?_)
  rw [blk0_apply V c t r k hlt, blk1_apply V c t r k hlt, blk2_apply V c t k q]

/-! ## The tiles cover the result array -/

/-- An index of the result array is in point `t`'s block iff each coordinate is in the block's range on its axis. -/
theorem mem_blk (t : Fin cfg2.N) (i : S50000x40.Idx) :
    i ∈ ((cfg2.win 4).blk t).view.set ↔ ∀ a : Fin 2, win2_4.index t a * S5000x40.size a ≤ (i a).val ∧ (i a).val < win2_4.index t a * S5000x40.size a + S5000x40.size a := by
  show i ∈ ((View.whole main_v46).slice (win2_4.rect t)).set ↔ _
  rw [View.set_slice_whole, Rect.mem_set_unit]
  exact Iff.rfl

/-- Row `n` of the result array lies in the block of the point `n / 5000`, which holds rows `5000·(n/5000)` up to
    `5000·(n/5000) + 4999` and all 40 columns; the 50000 rows are ten such blocks, and every point writes its block back. -/
theorem cover (i : S50000x40.Idx) :
    ∃ t : Fin cfg2.N, (cfg2.win 4).flush t = true ∧ i ∈ ((cfg2.win 4).blk t).view.set := by
  have hi0 : (i 0).val < 50000 := (i 0).isLt
  have hi1 : (i 1).val < 40 := (i 1).isLt
  have hN : cfg2.N = 10 := by decide
  have hlt : (i 0).val / 5000 < cfg2.N := by rw [hN]; omega
  obtain ⟨-, -, -, -, -, -, -, -, e0, e1⟩ := idx_facts ⟨(i 0).val / 5000, hlt⟩
  have e0' : win2_4.index ⟨(i 0).val / 5000, hlt⟩ (0 : Fin 2) = (i 0).val / 5000 := e0
  refine ⟨⟨(i 0).val / 5000, hlt⟩, flush2_4 _, ?_⟩
  rw [mem_blk]
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    omega
  | ⟨1, _⟩ =>
    show win2_4.index ⟨(i 0).val / 5000, hlt⟩ (1 : Fin 2) * 40 ≤ (i 1).val ∧ (i 1).val < win2_4.index ⟨(i 0).val / 5000, hlt⟩ (1 : Fin 2) * 40 + 40
    omega

/-! ## The array the region leaves -/

/-- The result array after the ten points is the layer's scores of the arrays the region finds: every point writes
    back its block of the scores, and the blocks cover the array. -/
theorem final (c : Dev nD) (b : Gin.Row40.Idx → EReal)
    (hb : ∀ q : Fin 40, V c (Pipeline.arrRef spec2 3) (ix2 (0 : Fin 1) q) = b (ix1 q)) :
    (dat2 (F := Ideal) V c).arrAt 4 cfg2.N
      = Gin.scores (V c (Pipeline.arrRef spec2 0)) (V c (Pipeline.arrRef spec2 1)) (V c (Pipeline.arrRef spec2 2)) b :=
  (dat2 (F := Ideal) V c).arrAt_eq_of_cover 4
    (Gin.scores (V c (Pipeline.arrRef spec2 0)) (V c (Pipeline.arrRef spec2 1)) (V c (Pipeline.arrRef spec2 2)) b)
    (fun t _ => flushed_eq V c t b hb) cover

end Cert.KernelIdeal.Reg2

end
-- ==== Proof.KChain.lean ====
/-
  The kernel program's result buffer, read back through its six segments to the launch arguments.

  The buffers' contents at the segment boundaries form a fold: a host stretch applies its operations, a region replaces
  its output array by what its grid wrote and leaves everything else. No segment writes an argument, so every argument
  reads as launched at every boundary. Region 0 therefore computes the first hidden layer of the arguments; the next
  stretch takes the neighbour sum of THAT array, so region 1 computes the second hidden layer; the last stretch takes
  the scaled neighbour sum of that, and region 2 computes the class scores.
-/
import proofs.«168084_j12936441496234_1_alg».proof.Proof.Gen.KernelIdeal.Frame
import proofs.«168084_j12936441496234_1_alg».proof.Proof.KHost
import proofs.«168084_j12936441496234_1_alg».proof.Proof.Reg0
import proofs.«168084_j12936441496234_1_alg».proof.Proof.Reg1
import proofs.«168084_j12936441496234_1_alg».proof.Proof.Reg2
import proofs.«168084_j12936441496234_1_alg».proof.Proof.Net

set_option maxRecDepth 16384

noncomputable section

open Idealize.ShloMosaic Idealize.ShloMosaic.TcCoe Idealize.SL.Sem Idealize.ShloMosaic.ValueIdx
open Cert.KernelIdeal Cert.KernelIdeal.Gen
open Cert.ReferenceIdeal.Net (agg meanTerm H1 H2 out)

namespace Cert.KernelIdeal.Chain

variable (m : (ℓ : Loc nD τ sig) → Buf (Elt Ideal) ℓ) (ρ : Dev nD → PrngReg) (c : Dev nD)

/-! ## Every argument reads as launched at every boundary it is read at -/

theorem k1_arg0 : W1 m ρ c (Proc.devRef .tc main_arg0) = m ((c : Thread nD τ).loc main_arg0) := Host.s0_arg0 (W0 m ρ c)
theorem k1_arg1 : W1 m ρ c (Proc.devRef .tc main_arg1) = m ((c : Thread nD τ).loc main_arg1) := Host.s0_arg1 (W0 m ρ c)
theorem k1_arg2 : W1 m ρ c (Proc.devRef .tc main_arg2) = m ((c : Thread nD τ).loc main_arg2) := Host.s0_arg2 (W0 m ρ c)
theorem k1_arg3 : W1 m ρ c (Proc.devRef .tc main_arg3) = m ((c : Thread nD τ).loc main_arg3) := Host.s0_arg3 (W0 m ρ c)
theorem k1_arg5 : W1 m ρ c (Proc.devRef .tc main_arg5) = m ((c : Thread nD τ).loc main_arg5) := Host.s0_arg5 (W0 m ρ c)
theorem k1_arg6 : W1 m ρ c (Proc.devRef .tc main_arg6) = m ((c : Thread nD τ).loc main_arg6) := Host.s0_arg6 (W0 m ρ c)
theorem k1_arg7 : W1 m ρ c (Proc.devRef .tc main_arg7) = m ((c : Thread nD τ).loc main_arg7) := Host.s0_arg7 (W0 m ρ c)
theorem k1_arg8 : W1 m ρ c (Proc.devRef .tc main_arg8) = m ((c : Thread nD τ).loc main_arg8) := Host.s0_arg8 (W0 m ρ c)
theorem k2_arg1 : W2 m ρ c (Proc.devRef .tc main_arg1) = m ((c : Thread nD τ).loc main_arg1) :=
  (W2_of_ne m ρ c main_arg1 (by decide)).trans (k1_arg1 m ρ c)
theorem k2_arg2 : W2 m ρ c (Proc.devRef .tc main_arg2) = m ((c : Thread nD τ).loc main_arg2) :=
  (W2_of_ne m ρ c main_arg2 (by decide)).trans (k1_arg2 m ρ c)
theorem k2_arg5 : W2 m ρ c (Proc.devRef .tc main_arg5) = m ((c : Thread nD τ).loc main_arg5) :=
  (W2_of_ne m ρ c main_arg5 (by decide)).trans (k1_arg5 m ρ c)
theorem k2_arg6 : W2 m ρ c (Proc.devRef .tc main_arg6) = m ((c : Thread nD τ).loc main_arg6) :=
  (W2_of_ne m ρ c main_arg6 (by decide)).trans (k1_arg6 m ρ c)
theorem k2_arg7 : W2 m ρ c (Proc.devRef .tc main_arg7) = m ((c : Thread nD τ).loc main_arg7) :=
  (W2_of_ne m ρ c main_arg7 (by decide)).trans (k1_arg7 m ρ c)
theorem k2_arg8 : W2 m ρ c (Proc.devRef .tc main_arg8) = m ((c : Thread nD τ).loc main_arg8) :=
  (W2_of_ne m ρ c main_arg8 (by decide)).trans (k1_arg8 m ρ c)
theorem k3_arg1 : W3 m ρ c (Proc.devRef .tc main_arg1) = m ((c : Thread nD τ).loc main_arg1) :=
  (Host.s1_arg1 (W2 m ρ c)).trans (k2_arg1 m ρ c)
theorem k3_arg2 : W3 m ρ c (Proc.devRef .tc main_arg2) = m ((c : Thread nD τ).loc main_arg2) :=
  (Host.s1_arg2 (W2 m ρ c)).trans (k2_arg2 m ρ c)
theorem k3_arg5 : W3 m ρ c (Proc.devRef .tc main_arg5) = m ((c : Thread nD τ).loc main_arg5) :=
  (Host.s1_arg5 (W2 m ρ c)).trans (k2_arg5 m ρ c)
theorem k3_arg7 : W3 m ρ c (Proc.devRef .tc main_arg7) = m ((c : Thread nD τ).loc main_arg7) :=
  (Host.s1_arg7 (W2 m ρ c)).trans (k2_arg7 m ρ c)
theorem k3_arg8 : W3 m ρ c (Proc.devRef .tc main_arg8) = m ((c : Thread nD τ).loc main_arg8) :=
  (Host.s1_arg8 (W2 m ρ c)).trans (k2_arg8 m ρ c)
theorem k4_arg1 : W4 m ρ c (Proc.devRef .tc main_arg1) = m ((c : Thread nD τ).loc main_arg1) :=
  (W4_of_ne m ρ c main_arg1 (by decide)).trans (k3_arg1 m ρ c)
theorem k4_arg2 : W4 m ρ c (Proc.devRef .tc main_arg2) = m ((c : Thread nD τ).loc main_arg2) :=
  (W4_of_ne m ρ c main_arg2 (by decide)).trans (k3_arg2 m ρ c)
theorem k4_arg7 : W4 m ρ c (Proc.devRef .tc main_arg7) = m ((c : Thread nD τ).loc main_arg7) :=
  (W4_of_ne m ρ c main_arg7 (by decide)).trans (k3_arg7 m ρ c)
theorem k4_arg8 : W4 m ρ c (Proc.devRef .tc main_arg8) = m ((c : Thread nD τ).loc main_arg8) :=
  (W4_of_ne m ρ c main_arg8 (by decide)).trans (k3_arg8 m ρ c)
theorem k5_arg7 : W5 m ρ c (Proc.devRef .tc main_arg7) = m ((c : Thread nD τ).loc main_arg7) :=
  (Host.s2_arg7 (W4 m ρ c)).trans (k4_arg7 m ρ c)

/-! ## The three regions' outputs -/

/-- After region 0 its output array holds the first hidden layer of the arguments. -/
theorem h1 : W2 m ρ c (Proc.devRef .tc main_v11) = H1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ?_
  refine (Reg0.final (V1 m ρ) c (m ((c : Thread nD τ).loc main_arg4)) (fun q => Host.s0_v10 (W0 m ρ c) q)).trans ?_
  have e0 : V1 m ρ c (Pipeline.arrRef spec0 0) = (m ((c : Thread nD τ).loc main_arg0)) := k1_arg0 m ρ c
  have e1 : V1 m ρ c (Pipeline.arrRef spec0 1) = agg (F := Ideal) (m ((c : Thread nD τ).loc main_arg0)) (m ((c : Thread nD τ).loc main_arg1)) (m ((c : Thread nD τ).loc main_arg2)) := Host.s0_v9 (W0 m ρ c)
  have e2 : V1 m ρ c (Pipeline.arrRef spec0 2) = (m ((c : Thread nD τ).loc main_arg3)) := k1_arg3 m ρ c
  rw [e0, e1, e2]

/-- After region 1 its output array holds the second hidden layer. -/
theorem h2 : W4 m ρ c (Proc.devRef .tc main_v23) = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 4).trans ?_
  refine (Reg1.final (V3 m ρ) c (m ((c : Thread nD τ).loc main_arg6))
    (fun q => (Host.s1_v22 (W2 m ρ c) q).trans (congrFun (k2_arg6 m ρ c) (ix1 q)))).trans ?_
  have e0 : V3 m ρ c (Pipeline.arrRef spec1 0) = H1 (m ((c : Thread nD τ).loc main_arg0)) (m ((c : Thread nD τ).loc main_arg1)) (m ((c : Thread nD τ).loc main_arg2)) (m ((c : Thread nD τ).loc main_arg3)) (m ((c : Thread nD τ).loc main_arg4)) := (Host.s1_v11 (W2 m ρ c)).trans (h1 m ρ c)
  have e1 : V3 m ρ c (Pipeline.arrRef spec1 1) = agg (F := Ideal) (H1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := by
    refine (Host.s1_v21 (W2 m ρ c)).trans ?_
    rw [h1 m ρ c, k2_arg1 m ρ c, k2_arg2 m ρ c]
  have e2 : V3 m ρ c (Pipeline.arrRef spec1 2) = (m ((c : Thread nD τ).loc main_arg5)) := k3_arg5 m ρ c
  rw [e0, e1, e2]

/-- After region 2 the result buffer holds the class scores: the network expression of the launch arguments. -/
theorem result : W6 m ρ c (Proc.devRef .tc main_v46) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 4).trans ?_
  refine (Reg2.final (V5 m ρ) c (m ((c : Thread nD τ).loc main_arg8))
    (fun q => (Host.s2_v45 (W4 m ρ c) q).trans (congrFun (k4_arg8 m ρ c) (ix1 q)))).trans ?_
  have e0 : V5 m ρ c (Pipeline.arrRef spec2 0) = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (Host.s2_v23 (W4 m ρ c)).trans (h2 m ρ c)
  have e1 : V5 m ρ c (Pipeline.arrRef spec2 1) = meanTerm (F := Ideal) (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := by
    refine (Host.s2_v44 (W4 m ρ c)).trans ?_
    rw [h2 m ρ c, k4_arg1 m ρ c, k4_arg2 m ρ c]
  have e2 : V5 m ρ c (Pipeline.arrRef spec2 2) = (m ((c : Thread nD τ).loc main_arg7)) := k5_arg7 m ρ c
  rw [e0, e1, e2]

end Cert.KernelIdeal.Chain

end
-- ==== Proof.RefLayers.lean ====
/-
  The reference program's three layers, each read as the specification's layer of the stage before it.
-/
import proofs.«168084_j12936441496234_1_alg».proof.Proof.Gen.ReferenceIdeal.Read
import proofs.«168084_j12936441496234_1_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.Layers

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x40, .f32⟩ : BufTy).Contents (Elt Ideal)) (x8 : (⟨S40, .f32⟩ : BufTy).Contents (Elt Ideal))

/-- The reference's first hidden layer: entry (r, q) is max (Σ_k (x0[r,k] + N(x0)[r,k]) · x3[k,q] + x4[q]) 0, the product
    read as its sum over the one contracted axis and the two broadcasts of the bias read back to the bias vector. -/
theorem layer1 : val_main_v15 (F := Ideal) x0 x1 x2 x3 x4 = Gin.hidden x0 (val_main_v9 (F := Ideal) x0 x1 x2) x3 x4 := by
  funext i
  obtain ⟨r, q, rfl⟩ : ∃ (r : Fin 50000) (q : Fin 128), i = ix2 r q := ⟨i 0, i 1, eq_ix2 i⟩
  rw [Gin.hidden_ix2]
  unfold Gin.pre128
  rw [val_main_v15_apply, val_main_v14_apply, val_main_v11_apply, val_main_v13_apply, val_main_v12_apply,
    val_main_call0_v0_apply, val_main_call0_cst_apply]
  have el : ∀ k : Fin 128, lidx_main_v11 (ix2 r q) k = ix2 r k := fun k => funext fun a => Fin.ext (by
    match a with | ⟨0, _⟩ => rfl | ⟨1, _⟩ => rfl)
  have er : ∀ k : Fin 128, ridx_main_v11 (ix2 r q) k = ix2 k q := fun k => funext fun a => Fin.ext (by
    match a with | ⟨0, _⟩ => rfl | ⟨1, _⟩ => rfl)
  have eb : idx_main_v12 (idx_main_v13 (ix2 r q)) = ix1 q := funext fun a => Fin.ext (by
    match a with | ⟨0, _⟩ => rfl)
  simp only [el, er, eb, val_main_v10_apply, Ideal.addf_def, Ideal.maximumf_def, Ideal.ofBits_def, Ideal.ofBits_zero_f32]

/-- The second hidden layer is the same map of the first layer's output, its neighbour sum, x5 and x6. -/
theorem layer2 : val_main_v31 (F := Ideal) x0 x1 x2 x3 x4 x5 x6
    = Gin.hidden (val_main_v15 (F := Ideal) x0 x1 x2 x3 x4) (val_main_v25 (F := Ideal) x0 x1 x2 x3 x4) x5 x6 := by
  funext i
  obtain ⟨r, q, rfl⟩ : ∃ (r : Fin 50000) (q : Fin 128), i = ix2 r q := ⟨i 0, i 1, eq_ix2 i⟩
  rw [Gin.hidden_ix2]
  unfold Gin.pre128
  rw [val_main_v31_apply, val_main_v30_apply, val_main_v27_apply, val_main_v29_apply, val_main_v28_apply,
    val_main_call1_v0_apply, val_main_call1_cst_apply]
  have el : ∀ k : Fin 128, lidx_main_v27 (ix2 r q) k = ix2 r k := fun k => funext fun a => Fin.ext (by
    match a with | ⟨0, _⟩ => rfl | ⟨1, _⟩ => rfl)
  have er : ∀ k : Fin 128, ridx_main_v27 (ix2 r q) k = ix2 k q := fun k => funext fun a => Fin.ext (by
    match a with | ⟨0, _⟩ => rfl | ⟨1, _⟩ => rfl)
  have eb : idx_main_v28 (idx_main_v29 (ix2 r q)) = ix1 q := funext fun a => Fin.ext (by
    match a with | ⟨0, _⟩ => rfl)
  simp only [el, er, eb, val_main_v26_apply, Ideal.addf_def, Ideal.maximumf_def, Ideal.ofBits_def, Ideal.ofBits_zero_f32]

/-- The class scores are the affine map, without the clamp, of the second layer's output, its degree-scaled
    neighbour sum, x7 and x8. -/
theorem layer3 : val_main_v55 (F := Ideal) x0 x1 x2 x3 x4 x5 x6 x7 x8
    = Gin.scores (val_main_v31 (F := Ideal) x0 x1 x2 x3 x4 x5 x6) (val_main_v50 (F := Ideal) x0 x1 x2 x3 x4 x5 x6) x7 x8 := by
  funext i
  obtain ⟨r, q, rfl⟩ : ∃ (r : Fin 50000) (q : Fin 40), i = ix2 r q := ⟨i 0, i 1, eq_ix2 i⟩
  rw [Gin.scores_ix2]
  unfold Gin.pre40
  rw [val_main_v55_apply, val_main_v52_apply, val_main_v54_apply, val_main_v53_apply]
  have el : ∀ k : Fin 128, lidx_main_v52 (ix2 r q) k = ix2 r k := fun k => funext fun a => Fin.ext (by
    match a with | ⟨0, _⟩ => rfl | ⟨1, _⟩ => rfl)
  have er : ∀ k : Fin 128, ridx_main_v52 (ix2 r q) k = ix2 k q := fun k => funext fun a => Fin.ext (by
    match a with | ⟨0, _⟩ => rfl | ⟨1, _⟩ => rfl)
  have eb : idx_main_v53 (idx_main_v54 (ix2 r q)) = ix1 q := funext fun a => Fin.ext (by
    match a with | ⟨0, _⟩ => rfl)
  simp only [el, er, eb, val_main_v51_apply, Ideal.addf_def]

end Cert.ReferenceIdeal.Layers

end
-- ==== Proof.RefNet.lean ====
/-
  The reference program's result is the network expression of its nine arguments: its three layers are the
  specification's layers of the stages before them, and its neighbour terms are the common neighbour sum.
-/
import proofs.«168084_j12936441496234_1_alg».proof.Proof.Net
import proofs.«168084_j12936441496234_1_alg».proof.Proof.RefLayers

noncomputable section

open Idealize.ShloMosaic Idealize.ShloMosaic.TcCoe Idealize.SL.Sem
open Cert.ReferenceIdeal Cert.ReferenceIdeal.Gen Cert.ReferenceIdeal.Read Cert.ReferenceIdeal.Net

namespace Cert.ReferenceIdeal.RefNet

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x40, .f32⟩ : BufTy).Contents (Elt Ideal)) (x8 : (⟨S40, .f32⟩ : BufTy).Contents (Elt Ideal))

/-- The reference's result is that expression of its arguments. -/
theorem ref_out : val_main_v55 (F := Ideal) x0 x1 x2 x3 x4 x5 x6 x7 x8 = out x0 x1 x2 x3 x4 x5 x6 x7 x8 := by
  have e1 : val_main_v15 (F := Ideal) x0 x1 x2 x3 x4 = H1 x0 x1 x2 x3 x4 := by
    rw [Layers.layer1, v9_eq]
  have e2 : val_main_v31 (F := Ideal) x0 x1 x2 x3 x4 x5 x6 = H2 x0 x1 x2 x3 x4 x5 x6 := by
    rw [Layers.layer2, v25_eq, e1]
  rw [Layers.layer3, Gin.scores_congr x7 x8 (v50_eq x0 x1 x2 x3 x4 x5 x6), e2]

end Cert.ReferenceIdeal.RefNet

end
-- ==== Proof.lean ====
/-
  A three-layer graph network (node features 50000 × 128, 800000 directed edges) computed two ways.

  Every layer is  x ↦ (x + N(x)) · W + b  with N the neighbour sum along the edge list (rows of x gathered at the edges'
  sources and added into the rows of their destinations); the two hidden layers clamp at zero, and the last layer scales
  its neighbour sum by one over the in-degree clamped below at one. The kernel program evaluates each layer's affine
  map and clamp in a row-tiled kernel (ten tiles of 5000 rows; a row of the result reads only the same row of its two
  inputs, so the tiling is invisible) and the neighbour sums on the host; the reference evaluates everything on the host.
  Over the extended reals the two agree entry by entry: the neighbour sum is the same function of its input on both
  sides and is carried unopened, a matrix product is the same finite sum however the rows are tiled, narrowing a float is
  the identity, and  s · (1 / max d 1) = s / max d 1  because max d 1 is never zero. Finiteness of the inputs is not used.
-/
import proofs.«168084_j12936441496234_1_alg».proof.Defs
import proofs.«168084_j12936441496234_1_alg».proof.Proof.Gen.Kernel
import proofs.«168084_j12936441496234_1_alg».proof.Proof.Gen.Kernel.Frame
import proofs.«168084_j12936441496234_1_alg».proof.Proof.Gen.KernelIdeal
import proofs.«168084_j12936441496234_1_alg».proof.Proof.Gen.KernelIdeal.Frame
import proofs.«168084_j12936441496234_1_alg».proof.Proof.Gen.ReferenceIdeal
import proofs.«168084_j12936441496234_1_alg».proof.Proof.Gen.ReferenceIdeal.Run
import proofs.«168084_j12936441496234_1_alg».proof.Proof.Gen.ReferenceIdeal.Read
import proofs.«168084_j12936441496234_1_alg».proof.Proof.Gen.Pre_finite_inputs
import proofs.«168084_j12936441496234_1_alg».proof.Proof.KRun
import proofs.«168084_j12936441496234_1_alg».proof.Proof.KChain
import proofs.«168084_j12936441496234_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the class scores at the network expression of the (agreeing) arguments. -/
theorem algebraic : Cert.algebraic_KernelIdeal_ReferenceIdeal := by
  intro m ρ m' ρ' _ hagree
  refine ⟨fun c => Cert.ReferenceIdeal.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, Cert.ReferenceIdeal.RefNet.ref_out,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
